-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S8192x4 : Shape := ⟨2, ![8192, 4]⟩
abbrev S8192x1 : Shape := ⟨2, ![8192, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x4, .f32⟩
  | .local _ .vmem, ⟨0, _⟩ => ⟨S8192x4, .f32⟩
  | .local _ .vmem, ⟨1, _⟩ => ⟨S8192x4, .f32⟩
  | .local _ .vmem, ⟨2, _⟩ => ⟨S8192x4, .f32⟩
  | .local _ .vmem, ⟨3, _⟩ => ⟨S8192x4, .f32⟩
  | .local _ .vmem, ⟨4, _⟩ => ⟨S8192x4, .f32⟩
  | .local _ .vmem, ⟨5, _⟩ => ⟨S8192x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x4_S8192x4_0_0 : ∀ a, (![0, 0] : Fin 2 → Nat) a + S8192x4.size a ≤ S8192x4.size a
  h_S8192x4 : 0 < S8192x4.numel
  slices_S8192x4_o0_0_S8192x1 : S8192x4.Slices ![0, 0] S8192x1
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  concatenates_S8192x1_S8192x1_S8192x1_S8192x1_S8192x4_d1 : Shape.Concatenates [S8192x1, S8192x1, S8192x1, S8192x1] S8192x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S8388608x4.size a
  hwx0_0 : ∀ i : grid0.Coords, EltTy.bits .f32 = 32 ∨ (Rect.block (s := S8388608x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S8388608x4.size a
  hwx0_1 : ∀ i : grid0.Coords, EltTy.bits .f32 = 32 ∨ (Rect.block (s := S8388608x4) S8192x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S8388608x4.size a
  hwx0_2 : ∀ i : grid0.Coords, EltTy.bits .f32 = 32 ∨ (Rect.block (s := S8388608x4) S8192x4.size (cc0_transform_2 i) (hinb0_2 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩

abbrev nBuf : Space → Nat
  | .hbm => 51
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S8388608x1, .f32⟩
  | .hbm, ⟨13, _⟩ => ⟨S8388608, .f32⟩
  | .hbm, ⟨14, _⟩ => ⟨S8388608x1, .f32⟩
  | .hbm, ⟨15, _⟩ => ⟨S8388608, .f32⟩
  | .hbm, ⟨16, _⟩ => ⟨S8388608x1, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.Hamilton.lean ====
/-
  The Hamilton product of two quaternions, component by component.

  A quaternion `a₀ + a₁·i + a₂·j + a₃·k` is the row `(a₀, a₁, a₂, a₃)`; with `i² = j² = k² = ijk = −1` the product
  `a·b` has the four components written out in `ham` below. Both programs form each component from four products
  that they add and subtract from left to right, so the components are spelt here with that same grouping: over the
  extended reals, where `+` and `−` are not cancellative at the infinities, no regrouping is then needed to compare
  the two programs.

  `hamRows q x` is the product taken row by row of two arrays of `n` quaternions: entry `(r, c)` is component `c`
  of the product of row `r` of `q` with row `r` of `x`.
-/
import Idealize.ShloMosaic.Lib.ValueIdx
import Idealize.ShloMosaic.PureOps.Ideal

noncomputable section

namespace Cert.Hamilton

open Idealize.ShloMosaic Idealize.ShloMosaic.ValueIdx

/-- Component `c` of the quaternion product `a·b`: the real part `a₀b₀ − a₁b₁ − a₂b₂ − a₃b₃` and the three imaginary
    parts, each a signed sum of four products taken from left to right. -/
def ham (a b : Fin 4 → EReal) : Fin 4 → EReal
  | ⟨0, _⟩ => a 0 * b 0 - a 1 * b 1 - a 2 * b 2 - a 3 * b 3
  | ⟨1, _⟩ => a 1 * b 0 + a 0 * b 1 - a 3 * b 2 + a 2 * b 3
  | ⟨2, _⟩ => a 2 * b 0 + a 3 * b 1 + a 0 * b 2 - a 1 * b 3
  | ⟨3, _⟩ => a 3 * b 0 - a 2 * b 1 + a 1 * b 2 + a 0 * b 3
  | ⟨_ + 4, h⟩ => absurd h (by omega)

/-- Row `r` of an `n × 4` array, as a quaternion. -/
def rowOf {n : Nat} (q : (⟨2, ![n, 4]⟩ : Shape).Idx → EReal) (r : Fin n) : Fin 4 → EReal := fun c => q (ix2 r c)

/-- The row-by-row quaternion product of two `n × 4` arrays. -/
def hamRows {n : Nat} (q x : (⟨2, ![n, 4]⟩ : Shape).Idx → EReal) : (⟨2, ![n, 4]⟩ : Shape).Idx → EReal :=
  fun i => ham (rowOf q (i 0)) (rowOf x (i 0)) (i 1)

theorem hamRows_ix2 {n : Nat} (q x : (⟨2, ![n, 4]⟩ : Shape).Idx → EReal) (r : Fin n) (c : Fin 4) :
    hamRows q x (ix2 r c) = ham (rowOf q r) (rowOf x r) c := rfl

end Cert.Hamilton

end
-- ==== Proof.Columns.lean ====
/-
  Columns of an `n × 4` array.

  Both programs take the four columns of each argument apart, compute on columns, and put four result columns side
  by side again. Two facts about that, for any number of rows `n`:
  * column `c` cut out of an `n × 4` array (a unit-stride slice at offset `(0, c)` of extent `n × 1`) holds at row
    `r` the array's entry `(r, c)`;
  * four `n × 1` columns joined along the second axis hold at `(r, c)` the `c`-th column's entry at row `r`.
-/
import Idealize.ShloMosaic.Lib.ValueIdx
import Idealize.ShloMosaic.Lib.Pipeline.Value

noncomputable section

namespace Cert.Columns

open Idealize.ShloMosaic Idealize.ShloMosaic.ValueIdx

variable {α : Type} {n : Nat}

/-- Column `c` of an `n × 4` array, read at row `r`. -/
theorem column_apply (c : Fin 4) (v : (⟨2, ![n, 4]⟩ : Shape).Idx → α)
    (h : (⟨2, ![n, 4]⟩ : Shape).Slices ![0, c.val] ⟨2, ![n, 1]⟩) (r : Fin n) (z : Fin 1) :
    extractStridedSlice ⟨2, ![n, 1]⟩ ![0, c.val] v h (ix2 r z) = v (ix2 r c) := by
  refine extractStridedSlice_apply _ v h (ix2 r z) (ix2 r c) fun a => ?_
  match a with
  | ⟨0, _⟩ => show r.val = 0 + r.val; omega
  | ⟨1, _⟩ => show c.val = c.val + z.val; omega

/-- The same with the offset written as a numeral, one statement per column (the form the printed slices have). -/
theorem column0_apply (v : (⟨2, ![n, 4]⟩ : Shape).Idx → α)
    (h : (⟨2, ![n, 4]⟩ : Shape).Slices ![0, 0] ⟨2, ![n, 1]⟩) (r : Fin n) (z : Fin 1) :
    extractStridedSlice ⟨2, ![n, 1]⟩ ![0, 0] v h (ix2 r z) = v (ix2 r 0) := column_apply 0 v h r z
theorem column1_apply (v : (⟨2, ![n, 4]⟩ : Shape).Idx → α)
    (h : (⟨2, ![n, 4]⟩ : Shape).Slices ![0, 1] ⟨2, ![n, 1]⟩) (r : Fin n) (z : Fin 1) :
    extractStridedSlice ⟨2, ![n, 1]⟩ ![0, 1] v h (ix2 r z) = v (ix2 r 1) := column_apply 1 v h r z
theorem column2_apply (v : (⟨2, ![n, 4]⟩ : Shape).Idx → α)
    (h : (⟨2, ![n, 4]⟩ : Shape).Slices ![0, 2] ⟨2, ![n, 1]⟩) (r : Fin n) (z : Fin 1) :
    extractStridedSlice ⟨2, ![n, 1]⟩ ![0, 2] v h (ix2 r z) = v (ix2 r 2) := column_apply 2 v h r z
theorem column3_apply (v : (⟨2, ![n, 4]⟩ : Shape).Idx → α)
    (h : (⟨2, ![n, 4]⟩ : Shape).Slices ![0, 3] ⟨2, ![n, 1]⟩) (r : Fin n) (z : Fin 1) :
    extractStridedSlice ⟨2, ![n, 1]⟩ ![0, 3] v h (ix2 r z) = v (ix2 r 3) := column_apply 3 v h r z

/-- Four columns side by side, read at `(r, c)`: the `c`-th column at row `r`. -/
theorem join4_apply (u : Fin 4 → ((⟨2, ![n, 1]⟩ : Shape).Idx → α))
    (h : Shape.Concatenates [(⟨2, ![n, 1]⟩ : Shape), ⟨2, ![n, 1]⟩, ⟨2, ![n, 1]⟩, ⟨2, ![n, 1]⟩] ⟨2, ![n, 4]⟩ 1)
    (r : Fin n) (c : Fin 4) :
    concatenate (⟨2, ![n, 4]⟩ : Shape) 1 [⟨⟨2, ![n, 1]⟩, u 0⟩, ⟨⟨2, ![n, 1]⟩, u 1⟩, ⟨⟨2, ![n, 1]⟩, u 2⟩, ⟨⟨2, ![n, 1]⟩, u 3⟩] h (ix2 r c)
      = u c (ix2 r 0) := by
  have key : ∀ (k : Nat) (hk : k < 4), c.val = k →
      concatenate (⟨2, ![n, 4]⟩ : Shape) 1 [⟨⟨2, ![n, 1]⟩, u 0⟩, ⟨⟨2, ![n, 1]⟩, u 1⟩, ⟨⟨2, ![n, 1]⟩, u 2⟩, ⟨⟨2, ![n, 1]⟩, u 3⟩] h (ix2 r c)
        = u ⟨k, hk⟩ (ix2 r 0) := by
    intro k hk hc
    refine concatenate_apply_piece (t := ⟨2, ![n, 4]⟩) (1 : Fin 2)
      [⟨⟨2, ![n, 1]⟩, u 0⟩, ⟨⟨2, ![n, 1]⟩, u 1⟩, ⟨⟨2, ![n, 1]⟩, u 2⟩, ⟨⟨2, ![n, 1]⟩, u 3⟩] h (ix2 r c) k hk
      ⟨2, ![n, 1]⟩ (u ⟨k, hk⟩) ?_ rfl k ?_ (ix2 r 0) ?_ ?_
    · match k, hk with
      | 0, _ => rfl
      | 1, _ => rfl
      | 2, _ => rfl
      | 3, _ => rfl
    · match k, hk with
      | 0, _ => rfl
      | 1, _ => rfl
      | 2, _ => rfl
      | 3, _ => rfl
    · intro b hb
      match b with
      | ⟨0, _⟩ => rfl
      | ⟨1, _⟩ => exact absurd rfl hb
    · show k + 0 = c.val; omega
  have := key c.val c.isLt rfl
  exact this

end Cert.Columns

end
-- ==== Proof.KernelRows.lean ====
/-
  The kernel's result array at the ideal instance.

  The grid has 1024 points; point `t` stages rows `8192·t … 8192·t + 8191` of both arguments (all four columns) and
  writes back the same rows of the result. The body cuts each staged block into its four columns, forms the four
  components of the quaternion product column-wise, and joins them: the block it stores is the row-by-row product
  `hamRows` of the two staged blocks (`body_rows`). A row of a staged block is the row of the argument array under
  it, so what point `t` writes back is block `t` of `hamRows q x` of the whole arguments (`writes_back`); the blocks
  cover the result array (row `r` lies in block `r / 8192`), hence the array ends as `hamRows q x` (`result`, `run`).
-/
import proofs.«119327_j19670950216617_1_alg».proof.Proof.Gen.KernelIdeal.Value
import proofs.«119327_j19670950216617_1_alg».proof.Proof.Hamilton
import proofs.«119327_j19670950216617_1_alg».proof.Proof.Columns

noncomputable section

namespace Cert.KernelIdeal.RowValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Hamilton Cert.Columns

/-! ## One block -/

/-- Component `c` as the body computes it on columns (the generated family `Cat2_0`: the four operands of the body's
    join), read at row `p`: component `c` of the product of row `p` of the first block with row `p` of the second. -/
theorem component_row (P0 P1 : Vec Ideal S8192x4 .f32) (p : Fin 8192) (c : Fin 4) :
    Cat2_0 P0 P1 c (ix2 p 0) = ham (rowOf P0 p) (rowOf P1 p) c := by
  match c with
  | ⟨0, _⟩ =>
    dsimp only [Cat2_0, ham, rowOf, subf_apply, mulf_apply, addf_apply]
    simp only [column0_apply, column1_apply, column2_apply, column3_apply]
  | ⟨1, _⟩ =>
    dsimp only [Cat2_0, ham, rowOf, subf_apply, mulf_apply, addf_apply]
    simp only [column0_apply, column1_apply, column2_apply, column3_apply]
  | ⟨2, _⟩ =>
    dsimp only [Cat2_0, ham, rowOf, subf_apply, mulf_apply, addf_apply]
    simp only [column0_apply, column1_apply, column2_apply, column3_apply]
  | ⟨3, _⟩ =>
    dsimp only [Cat2_0, ham, rowOf, subf_apply, mulf_apply, addf_apply]
    simp only [column0_apply, column1_apply, column2_apply, column3_apply]

/-- The block the body stores is the row-by-row quaternion product of the two blocks it loaded. -/
theorem body_rows (P0 P1 : Vec Ideal S8192x4 .f32) : k0_pay1 P0 P1 = hamRows P0 P1 := by
  funext y
  obtain ⟨p, c, rfl⟩ : ∃ (p : Fin 8192) (c : Fin 4), y = ix2 p c := ⟨y 0, y 1, eq_ix2 y⟩
  rw [hamRows_ix2, ← component_row]
  exact join4_apply (Cat2_0 P0 P1) concatenates_S8192x1_S8192x1_S8192x1_S8192x1_S8192x4_d1 p c

/-! ## From blocks to the array -/

variable (m : (ℓ : Loc nD τ sig) → Buf (Elt Ideal) ℓ) (ρ : Dev nD → PrngReg)

/-- At point `t` all three windows sit at block `(t, 0)`: rows `8192·t …`, all four columns (decided over the grid). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The blocks of the two arguments that point `t` stages. -/
abbrev qblk (c : Dev nD) (t : Fin cfg0.N) : Vec Ideal S8192x4 .f32 := iblk m c 0 t
abbrev xblk (c : Dev nD) (t : Fin cfg0.N) : Vec Ideal S8192x4 .f32 := iblk m c 1 t

/-- Row `8192·t + p` of the arrays: the row under row `p` of point `t`'s blocks. -/
def rowUnder (t : Fin cfg0.N) (p : Fin 8192) : Fin 8388608 :=
  ⟨t.val * 8192 + p.val, by have ht : t.val < 1024 := t.isLt; have hp := p.isLt; omega⟩

/-- Row `p` of the staged block of the first argument is row `8192·t + p` of that argument, -/
theorem qblk_row (c : Dev nD) (t : Fin cfg0.N) (p : Fin 8192) :
    rowOf (qblk m c t) p = rowOf (V m c main_arg0) (rowUnder t p) := by
  obtain ⟨e00, e01, -, -, -, -⟩ := block_index t
  funext k
  show V m c main_arg0 (((cfg0.win 0).blk t).view.emb (ix2 p k)) = V m c main_arg0 (ix2 (rowUnder t p) k)
  refine congrArg (V m c main_arg0) (funext fun a => Fin.ext ?_)
  match a with
  | ⟨0, _⟩ => show win0_0.index t (0 : Fin 2) * 8192 + 1 * p.val = t.val * 8192 + p.val; omega
  | ⟨1, _⟩ => show win0_0.index t (1 : Fin 2) * 4 + 1 * k.val = k.val; omega

/-- and the same for the second argument. -/
theorem xblk_row (c : Dev nD) (t : Fin cfg0.N) (p : Fin 8192) :
    rowOf (xblk m c t) p = rowOf (V m c main_arg1) (rowUnder t p) := by
  obtain ⟨-, -, e10, e11, -, -⟩ := block_index t
  funext k
  show V m c main_arg1 (((cfg0.win 1).blk t).view.emb (ix2 p k)) = V m c main_arg1 (ix2 (rowUnder t p) k)
  refine congrArg (V m c main_arg1) (funext fun a => Fin.ext ?_)
  match a with
  | ⟨0, _⟩ => show win0_1.index t (0 : Fin 2) * 8192 + 1 * p.val = t.val * 8192 + p.val; omega
  | ⟨1, _⟩ => show win0_1.index t (1 : Fin 2) * 4 + 1 * k.val = k.val; omega

theorem zero_offsets : (![0, 0] : Fin 2 → Nat) = fun _ => 0 := funext fun a => by fin_cases a <;> rfl

/-- What point `t` writes back is block `t` of the row-by-row product of the whole arguments. -/
theorem writes_back (c : Dev nD) (t : Fin cfg0.N) :
    (dats m 0 c).flushed 2 t
      = ((cfg0.win 2).blk t).view.read (Elt Ideal) (hamRows (V m c main_arg0) (V m c main_arg1)) := by
  rw [flushed2]
  unfold out0_2
  rw [View.canon_unit_zero zero_offsets]
  simp only [View.ld_unit_zero (S := S8192x4) zero_offsets]
  rw [body_rows]
  obtain ⟨-, -, -, -, e20, e21⟩ := block_index t
  funext j
  obtain ⟨p, k, rfl⟩ : ∃ (p : Fin 8192) (k : Fin 4), j = ix2 p k := ⟨j 0, j 1, eq_ix2 j⟩
  have under : ((cfg0.win 2).blk t).view.emb (ix2 p k) = ix2 (rowUnder t p) k := by
    funext a; apply Fin.ext
    match a with
    | ⟨0, _⟩ => show win0_2.index t (0 : Fin 2) * 8192 + 1 * p.val = t.val * 8192 + p.val; omega
    | ⟨1, _⟩ => show win0_2.index t (1 : Fin 2) * 4 + 1 * k.val = k.val; omega
  show ham (rowOf (qblk m c t) p) (rowOf (xblk m c t) p) k
    = hamRows (V m c main_arg0) (V m c main_arg1) (((cfg0.win 2).blk t).view.emb (ix2 p k))
  rw [under, hamRows_ix2, qblk_row, xblk_row]

/-- An index of the result array lies in point `t`'s block iff each coordinate lies in the block's range. -/
theorem mem_block (t : Fin cfg0.N) (i : S8388608x4.Idx) :
    i ∈ ((cfg0.win 2).blk t).view.set ↔ ∀ a : Fin 2, win0_2.index t a * S8192x4.size a ≤ (i a).val
      ∧ (i a).val < win0_2.index t a * S8192x4.size a + S8192x4.size a := by
  show i ∈ ((View.whole main_v0).slice (win0_2.rect t)).set ↔ _
  rw [View.set_slice_whole, Rect.mem_set_unit]
  exact Iff.rfl

/-- Every index of the result array is written: row `r` lies in the block of point `r / 8192`. -/
theorem covered (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  have hlt : (i 0).val / 8192 < 1024 := by omega
  obtain ⟨-, -, -, -, e20, e21⟩ := block_index ⟨(i 0).val / 8192, hlt⟩
  refine ⟨⟨(i 0).val / 8192, hlt⟩, flush0_2 _, ?_⟩
  rw [mem_block]
  intro a
  match a with
  | ⟨0, _⟩ =>
    show win0_2.index ⟨(i 0).val / 8192, hlt⟩ (0 : Fin 2) * 8192 ≤ (i 0).val
      ∧ (i 0).val < win0_2.index ⟨(i 0).val / 8192, hlt⟩ (0 : Fin 2) * 8192 + 8192
    rw [e20]; show (i 0).val / 8192 * 8192 ≤ (i 0).val ∧ (i 0).val < (i 0).val / 8192 * 8192 + 8192; omega
  | ⟨1, _⟩ =>
    show win0_2.index ⟨(i 0).val / 8192, hlt⟩ (1 : Fin 2) * 4 ≤ (i 1).val
      ∧ (i 1).val < win0_2.index ⟨(i 0).val / 8192, hlt⟩ (1 : Fin 2) * 4 + 4
    rw [e21]; omega

/-- The result array after the run: the row-by-row quaternion product of the two arguments as launched. -/
theorem result (c : Dev nD) :
    (dats m 0 c).arrAt 2 cfg0.N
      = hamRows (m ((c : Thread nD τ).loc main_arg0)) (m ((c : Thread nD τ).loc main_arg1)) :=
  (dats m 0 c).arrAt_eq_of_cover 2 (hamRows (V m c main_arg0) (V m c main_arg1))
    (fun t _ => writes_back m c t) covered

/-- The kernel's run: it ends with the result array at that product and the arguments unchanged. -/
theorem run : θ_run defs (onTc (τ := τ) (main (F := Ideal))) ⟨m, fun _ => 0, ρ⟩ fun r => ∀ c : Dev nD,
      r.2.mem ((c : Thread nD τ).loc main_v0)
        = hamRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

end Cert.KernelIdeal.RowValue

end
-- ==== Proof.ReferenceRows.lean ====
/-
  The reference's result at the ideal instance.

  The reference slices each argument into its four columns, flattens each `n × 1` column to a vector of length
  `n = 8388608`, forms the four components of the quaternion product on vectors, gives each component its unit axis
  back and joins the four columns. Read at `(r, c)`: the join picks component `c`; the broadcast reads it at `r`;
  a flattened column `k` at `r` is the argument's entry `(r, k)`. So the result is `hamRows q x`, the row-by-row
  quaternion product of the two arguments, with the summands grouped as `ham` groups them.
-/
import proofs.«119327_j19670950216617_1_alg».proof.Proof.Gen.ReferenceIdeal.Read
import proofs.«119327_j19670950216617_1_alg».proof.Proof.Hamilton
import proofs.«119327_j19670950216617_1_alg».proof.Proof.Columns

noncomputable section

namespace Cert.ReferenceIdeal.RowValue

open Cert.ReferenceIdeal Cert.ReferenceIdeal.Gen Cert.ReferenceIdeal.Read Idealize.ShloMosaic Idealize.ShloMosaic.TcCoe Idealize.SL.Sem
open Idealize.ShloMosaic.ValueIdx
open Cert.Hamilton Cert.Columns

variable (q x : FVec Ideal S8388608x4 .f32)

/-! ## The flattened columns: column `k` of an argument, as a vector, at `r` is the argument's entry `(r, k)` -/

theorem q_col0 (r : Fin 8388608) : val_main_v1 (F := Ideal) q (ix1 r) = q (ix2 r 0) := by
  rw [val_main_v1_apply, val_main_v0_apply]
  refine congrArg q (funext fun a => ?_)
  match a with
  | ⟨0, _⟩ => exact Fin.ext (Nat.div_one _)
  | ⟨1, _⟩ => exact Fin.ext rfl
theorem q_col1 (r : Fin 8388608) : val_main_v3 (F := Ideal) q (ix1 r) = q (ix2 r 1) := by
  rw [val_main_v3_apply, val_main_v2_apply]
  refine congrArg q (funext fun a => ?_)
  match a with
  | ⟨0, _⟩ => exact Fin.ext (Nat.div_one _)
  | ⟨1, _⟩ => exact Fin.ext rfl
theorem q_col2 (r : Fin 8388608) : val_main_v5 (F := Ideal) q (ix1 r) = q (ix2 r 2) := by
  rw [val_main_v5_apply, val_main_v4_apply]
  refine congrArg q (funext fun a => ?_)
  match a with
  | ⟨0, _⟩ => exact Fin.ext (Nat.div_one _)
  | ⟨1, _⟩ => exact Fin.ext rfl
theorem q_col3 (r : Fin 8388608) : val_main_v7 (F := Ideal) q (ix1 r) = q (ix2 r 3) := by
  rw [val_main_v7_apply, val_main_v6_apply]
  refine congrArg q (funext fun a => ?_)
  match a with
  | ⟨0, _⟩ => exact Fin.ext (Nat.div_one _)
  | ⟨1, _⟩ => exact Fin.ext rfl
theorem x_col0 (r : Fin 8388608) : val_main_v9 (F := Ideal) x (ix1 r) = x (ix2 r 0) := by
  rw [val_main_v9_apply, val_main_v8_apply]
  refine congrArg x (funext fun a => ?_)
  match a with
  | ⟨0, _⟩ => exact Fin.ext (Nat.div_one _)
  | ⟨1, _⟩ => exact Fin.ext rfl
theorem x_col1 (r : Fin 8388608) : val_main_v11 (F := Ideal) x (ix1 r) = x (ix2 r 1) := by
  rw [val_main_v11_apply, val_main_v10_apply]
  refine congrArg x (funext fun a => ?_)
  match a with
  | ⟨0, _⟩ => exact Fin.ext (Nat.div_one _)
  | ⟨1, _⟩ => exact Fin.ext rfl
theorem x_col2 (r : Fin 8388608) : val_main_v13 (F := Ideal) x (ix1 r) = x (ix2 r 2) := by
  rw [val_main_v13_apply, val_main_v12_apply]
  refine congrArg x (funext fun a => ?_)
  match a with
  | ⟨0, _⟩ => exact Fin.ext (Nat.div_one _)
  | ⟨1, _⟩ => exact Fin.ext rfl
theorem x_col3 (r : Fin 8388608) : val_main_v15 (F := Ideal) x (ix1 r) = x (ix2 r 3) := by
  rw [val_main_v15_apply, val_main_v14_apply]
  refine congrArg x (funext fun a => ?_)
  match a with
  | ⟨0, _⟩ => exact Fin.ext (Nat.div_one _)
  | ⟨1, _⟩ => exact Fin.ext rfl

/-! ## The four components, as vectors of length `n` -/

/-- The real part `q₀x₀ − q₁x₁ − q₂x₂ − q₃x₃`. -/
theorem part0 (r : Fin 8388608) : val_main_v22 (F := Ideal) q x (ix1 r) = ham (rowOf q r) (rowOf x r) 0 := by
  show val_main_v1 (F := Ideal) q (ix1 r) * val_main_v9 (F := Ideal) x (ix1 r)
      - val_main_v3 (F := Ideal) q (ix1 r) * val_main_v11 (F := Ideal) x (ix1 r)
      - val_main_v5 (F := Ideal) q (ix1 r) * val_main_v13 (F := Ideal) x (ix1 r)
      - val_main_v7 (F := Ideal) q (ix1 r) * val_main_v15 (F := Ideal) x (ix1 r) = _
  rw [q_col0, q_col1, q_col2, q_col3, x_col0, x_col1, x_col2, x_col3]
  rfl

/-- The `i` part `q₁x₀ + q₀x₁ − q₃x₂ + q₂x₃`. -/
theorem part1 (r : Fin 8388608) : val_main_v29 (F := Ideal) q x (ix1 r) = ham (rowOf q r) (rowOf x r) 1 := by
  show val_main_v3 (F := Ideal) q (ix1 r) * val_main_v9 (F := Ideal) x (ix1 r)
      + val_main_v1 (F := Ideal) q (ix1 r) * val_main_v11 (F := Ideal) x (ix1 r)
      - val_main_v7 (F := Ideal) q (ix1 r) * val_main_v13 (F := Ideal) x (ix1 r)
      + val_main_v5 (F := Ideal) q (ix1 r) * val_main_v15 (F := Ideal) x (ix1 r) = _
  rw [q_col0, q_col1, q_col2, q_col3, x_col0, x_col1, x_col2, x_col3]
  rfl

/-- The `j` part `q₂x₀ + q₃x₁ + q₀x₂ − q₁x₃`. -/
theorem part2 (r : Fin 8388608) : val_main_v36 (F := Ideal) q x (ix1 r) = ham (rowOf q r) (rowOf x r) 2 := by
  show val_main_v5 (F := Ideal) q (ix1 r) * val_main_v9 (F := Ideal) x (ix1 r)
      + val_main_v7 (F := Ideal) q (ix1 r) * val_main_v11 (F := Ideal) x (ix1 r)
      + val_main_v1 (F := Ideal) q (ix1 r) * val_main_v13 (F := Ideal) x (ix1 r)
      - val_main_v3 (F := Ideal) q (ix1 r) * val_main_v15 (F := Ideal) x (ix1 r) = _
  rw [q_col0, q_col1, q_col2, q_col3, x_col0, x_col1, x_col2, x_col3]
  rfl

/-- The `k` part `q₃x₀ − q₂x₁ + q₁x₂ + q₀x₃`. -/
theorem part3 (r : Fin 8388608) : val_main_v43 (F := Ideal) q x (ix1 r) = ham (rowOf q r) (rowOf x r) 3 := by
  show val_main_v7 (F := Ideal) q (ix1 r) * val_main_v9 (F := Ideal) x (ix1 r)
      - val_main_v5 (F := Ideal) q (ix1 r) * val_main_v11 (F := Ideal) x (ix1 r)
      + val_main_v3 (F := Ideal) q (ix1 r) * val_main_v13 (F := Ideal) x (ix1 r)
      + val_main_v1 (F := Ideal) q (ix1 r) * val_main_v15 (F := Ideal) x (ix1 r) = _
  rw [q_col0, q_col1, q_col2, q_col3, x_col0, x_col1, x_col2, x_col3]
  rfl

/-! ## The four result columns and their join -/

/-- The components with their unit axis back: the four `n × 1` columns the reference joins. -/
def resultColumn : Fin 4 → FVec Ideal S8388608x1 .f32
  | ⟨0, _⟩ => val_main_v44 (F := Ideal) q x
  | ⟨1, _⟩ => val_main_v45 (F := Ideal) q x
  | ⟨2, _⟩ => val_main_v46 (F := Ideal) q x
  | ⟨3, _⟩ => val_main_v47 (F := Ideal) q x
  | ⟨_ + 4, h⟩ => absurd h (by omega)

/-- Result column `c` at row `r` is component `c` of the product of the two arguments' rows `r`. -/
theorem resultColumn_apply (r : Fin 8388608) (c : Fin 4) :
    resultColumn q x c (ix2 r 0) = ham (rowOf q r) (rowOf x r) c := by
  have e44 : idx_main_v44 (ix2 r (0 : Fin 1)) = ix1 r := funext fun a => match a with | ⟨0, _⟩ => rfl
  have e45 : idx_main_v45 (ix2 r (0 : Fin 1)) = ix1 r := funext fun a => match a with | ⟨0, _⟩ => rfl
  have e46 : idx_main_v46 (ix2 r (0 : Fin 1)) = ix1 r := funext fun a => match a with | ⟨0, _⟩ => rfl
  have e47 : idx_main_v47 (ix2 r (0 : Fin 1)) = ix1 r := funext fun a => match a with | ⟨0, _⟩ => rfl
  match c with
  | ⟨0, _⟩ => show val_main_v44 (F := Ideal) q x (ix2 r 0) = _; rw [val_main_v44_apply, e44]; exact part0 q x r
  | ⟨1, _⟩ => show val_main_v45 (F := Ideal) q x (ix2 r 0) = _; rw [val_main_v45_apply, e45]; exact part1 q x r
  | ⟨2, _⟩ => show val_main_v46 (F := Ideal) q x (ix2 r 0) = _; rw [val_main_v46_apply, e46]; exact part2 q x r
  | ⟨3, _⟩ => show val_main_v47 (F := Ideal) q x (ix2 r 0) = _; rw [val_main_v47_apply, e47]; exact part3 q x r

/-- The reference's last stage is the row-by-row quaternion product of its arguments. -/
theorem stage_rows : val_main_v48 (F := Ideal) q x = hamRows q x := by
  funext i
  obtain ⟨r, c, rfl⟩ : ∃ (r : Fin 8388608) (c : Fin 4), i = ix2 r c := ⟨i 0, i 1, eq_ix2 i⟩
  rw [hamRows_ix2, ← resultColumn_apply]
  exact join4_apply (resultColumn q x) concatenates_S8388608x1_S8388608x1_S8388608x1_S8388608x1_S8388608x4_d1 r c

/-- The result the reference's run ends with, as a function of the launch contents of its arguments. -/
theorem result (m : (ℓ : Loc nD τ sig) → Buf (Elt Ideal) ℓ) (c : Dev nD) :
    Cert.ReferenceIdeal.Value.res_main_v48 m c
      = hamRows (m ((c.tc : Thread nD τ).loc main_arg0)) (m ((c.tc : Thread nD τ).loc main_arg1)) :=
  (val_main_v48_eq m c).trans (stage_rows _ _)

end Cert.ReferenceIdeal.RowValue

end
-- ==== Proof.lean ====
/-
  The quaternion-product kernel against its reference, over the extended reals.

  Both programs take two arrays `q`, `x` of 8388608 quaternions (rows of four numbers) and return, row by row, the
  Hamilton product `q·x`. The kernel works on blocks of 8192 rows: it splits each staged block into its four columns,
  forms the four components of the product column-wise and joins them. The reference does the same on the whole
  arrays, through flattened columns. Each component is a signed sum of four products, and both programs add and
  subtract the four products in the same order, so at the ideal instance the two results are the same function
  `Cert.Hamilton.hamRows q x` of the arguments, entry by entry: no law of the extended reals beyond reading the
  two terms is used, and the precondition (finite inputs) is never opened.

  * `Proof/Hamilton.lean`: the product's four components and the row-by-row product of two arrays.
  * `Proof/Columns.lean`: a column cut out of an `n × 4` array, and four columns joined, read at an index.
  * `Proof/KernelRows.lean`: the kernel's result array is `hamRows q x` (one block, then the cover by blocks).
  * `Proof/ReferenceRows.lean`: the reference's result is `hamRows q x`.
  The three frames are the generated ones (the reference's is its run with the result dropped); the idealization
  rewrote nothing, so `preserves` is trivial.
-/
import proofs.«119327_j19670950216617_1_alg».proof.Defs
import proofs.«119327_j19670950216617_1_alg».proof.Proof.Gen.Kernel
import proofs.«119327_j19670950216617_1_alg».proof.Proof.Gen.Kernel.Skeleton
import proofs.«119327_j19670950216617_1_alg».proof.Proof.Gen.Kernel.Launch
import proofs.«119327_j19670950216617_1_alg».proof.Proof.Gen.Kernel.Points
import proofs.«119327_j19670950216617_1_alg».proof.Proof.Gen.Kernel.Frame
import proofs.«119327_j19670950216617_1_alg».proof.Proof.Gen.KernelIdeal
import proofs.«119327_j19670950216617_1_alg».proof.Proof.Gen.KernelIdeal.Skeleton
import proofs.«119327_j19670950216617_1_alg».proof.Proof.Gen.KernelIdeal.Launch
import proofs.«119327_j19670950216617_1_alg».proof.Proof.Gen.KernelIdeal.Points
import proofs.«119327_j19670950216617_1_alg».proof.Proof.Gen.KernelIdeal.Frame
import proofs.«119327_j19670950216617_1_alg».proof.Proof.Gen.ReferenceIdeal
import proofs.«119327_j19670950216617_1_alg».proof.Proof.Gen.Pre_finite_inputs
import proofs.«119327_j19670950216617_1_alg».proof.Proof.Gen.KernelIdeal.Value
import proofs.«119327_j19670950216617_1_alg».proof.Proof.Gen.ReferenceIdeal.Run
import proofs.«119327_j19670950216617_1_alg».proof.Proof.Gen.ReferenceIdeal.Read
import proofs.«119327_j19670950216617_1_alg».proof.Proof.KernelRows
import proofs.«119327_j19670950216617_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on `q` and `x`, both programs end with the result `hamRows q x`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RowValue.result, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
